-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v9_0)) (v1 : (c : Dev Cert.KernelIdeal.nD) → Buf (Elt Ideal) ((c.tc : Thread Cert.KernelIdeal.nD Cert.KernelIdeal.τ).loc Cert.KernelIdeal.main_v9_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9_0) = v0 c
          ∧ r.2.mem ((c.tc : Thread Cert.KernelIdeal.nD Cert.KernelIdeal.τ).loc Cert.KernelIdeal.main_v9_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_v30) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x256x256 : Shape := ⟨3, ![256, 256, 256]⟩
abbrev S256 : Shape := ⟨1, ![256]⟩
abbrev S_ : Shape := ⟨0, ![]⟩

class Facts : Prop where
  bcast_S_S256 : S_.BroadcastsInDim S256 (![] : Fin 0 → Fin S256.rank)
  reducesTo_S256_S_d0 : S256.ReducesTo [0] S_
  h_S_ : 0 < S_.numel
  bcast_S_S256x256x256 : S_.BroadcastsInDim S256x256x256 (![] : Fin 0 → Fin S256x256x256.rank)
  reducesTo_S256x256x256_S_d0_1_2 : S256x256x256.ReducesTo [0, 1, 2] S_

variable [Facts]

def fn {F : FTy → Type} [FloatOps F] (main_arg0 : IVec S256x256x256 32) (main_arg1 : FVec F S256 .f32) (main_arg2 : IVec S256 32) (main_arg3 : FVec F S256x256x256 .f32) : IVec S_ 1 :=
  let main_v0 : FVec F S256 .f32 := Host.absf main_arg1
  let main_cst : FVec F S_ .f32 := constant S_ .f32 0x7F800000#32
  let main_v1 : FVec F S256 .f32 := broadcastInDim S256 ![] bcast_S_S256 main_cst
  let main_v2 : IVec S256 1 := cmpf .olt main_v0 main_v1
  let main_c : IVec S_ 1 := constantI S_ 1 1#1
  let main_v3 : IVec S_ 1 := (fun x v => Host.reduce IntOp.andi x v reducesTo_S256_S_d0 h_S_) main_v2 main_c
  let main_v4 : FVec F S256x256x256 .f32 := Host.absf main_arg3
  let main_cst_0 : FVec F S_ .f32 := constant S_ .f32 0x7F800000#32
  let main_v5 : FVec F S256x256x256 .f32 := broadcastInDim S256x256x256 ![] bcast_S_S256x256x256 main_cst_0
  let main_v6 : IVec S256x256x256 1 := cmpf .olt main_v4 main_v5
  let main_c_1 : IVec S_ 1 := constantI S_ 1 1#1
  let main_v7 : IVec S_ 1 := (fun x v => Host.reduce IntOp.andi x v reducesTo_S256x256x256_S_d0_1_2 h_S_) main_v6 main_c_1
  let main_v8 : IVec S_ 1 := andi main_v3 main_v7
  let main_c_2 : IVec S_ 32 := constantI S_ 32 0#32
  let main_v9 : IVec S256x256x256 32 := broadcastInDim S256x256x256 ![] bcast_S_S256x256x256 main_c_2
  let main_v10 : IVec S256x256x256 1 := cmpi .sge main_arg0 main_v9
  let main_c_3 : IVec S_ 32 := constantI S_ 32 256#32
  let main_v11 : IVec S256x256x256 32 := broadcastInDim S256x256x256 ![] bcast_S_S256x256x256 main_c_3
  let main_v12 : IVec S256x256x256 1 := cmpi .slt main_arg0 main_v11
  let main_v13 : IVec S256x256x256 1 := andi main_v10 main_v12
  let main_c_4 : IVec S_ 1 := constantI S_ 1 1#1
  let main_v14 : IVec S_ 1 := (fun x v => Host.reduce IntOp.andi x v reducesTo_S256x256x256_S_d0_1_2 h_S_) main_v13 main_c_4
  let main_v15 : IVec S_ 1 := andi main_v8 main_v14
  main_v15
-- ==== Kernel.lean ====
abbrev S256x256x256 : Shape := ⟨3, ![256, 256, 256]⟩
abbrev S256 : Shape := ⟨1, ![256]⟩
abbrev S_ : Shape := ⟨0, ![]⟩
abbrev S128 : Shape := ⟨1, ![128]⟩
abbrev S3x256x256x256 : Shape := ⟨4, ![3, 256, 256, 256]⟩
abbrev S8x256x128 : Shape := ⟨3, ![8, 256, 128]⟩
abbrev S3x8x256x128 : Shape := ⟨4, ![3, 8, 256, 128]⟩
abbrev S1x1x128 : Shape := ⟨3, ![1, 1, 128]⟩
abbrev S8x256x128x1 : Shape := ⟨4, ![8, 256, 128, 1]⟩
abbrev S1x8x256x128 : Shape := ⟨4, ![1, 8, 256, 128]⟩

abbrev nBuf : Space → Nat
  | .hbm => 18
  | .vmem => 12
  | .smem => 0
  | _ => 0

abbrev bufTy : (tb : Table) → Fin (tcTables nBuf tb) → BufTy
  | .hbm, ⟨0, _⟩ => ⟨S256x256x256, .i32⟩
  | .hbm, ⟨1, _⟩ => ⟨S256, .f32⟩
  | .hbm, ⟨2, _⟩ => ⟨S256, .i32⟩
  | .hbm, ⟨3, _⟩ => ⟨S256x256x256, .f32⟩
  | .hbm, ⟨4, _⟩ => ⟨S256, .i32⟩
  | .hbm, ⟨5, _⟩ => ⟨S_, .i32⟩
  | .hbm, ⟨6, _⟩ => ⟨S256, .i32⟩
  | .hbm, ⟨7, _⟩ => ⟨S256, .i1⟩
  | .hbm, ⟨8, _⟩ => ⟨S_, .f32⟩
  | .hbm, ⟨9, _⟩ => ⟨S256, .f32⟩
  | .hbm, ⟨10, _⟩ => ⟨S256, .f32⟩
  | .hbm, ⟨11, _⟩ => ⟨S256, .f32⟩
  | .hbm, ⟨12, _⟩ => ⟨S128, .f32⟩
  | .hbm, ⟨13, _⟩ => ⟨S128, .f32⟩
  | .hbm, ⟨14, _⟩ => ⟨S128, .f32⟩
  | .hbm, ⟨15, _⟩ => ⟨S128, .f32⟩
  | .hbm, ⟨16, _⟩ => ⟨S256x256x256, .f32⟩
  | .hbm, ⟨17, _⟩ => ⟨S3x256x256x256, .f32⟩
  | .local _ .vmem, ⟨0, _⟩ => ⟨S128, .f32⟩
  | .local _ .vmem, ⟨1, _⟩ => ⟨S128, .f32⟩
  | .local _ .vmem, ⟨2, _⟩ => ⟨S128, .f32⟩
  | .local _ .vmem, ⟨3, _⟩ => ⟨S128, .f32⟩
  | .local _ .vmem, ⟨4, _⟩ => ⟨S8x256x128, .i32⟩
  | .local _ .vmem, ⟨5, _⟩ => ⟨S8x256x128, .i32⟩
  | .local _ .vmem, ⟨6, _⟩ => ⟨S8x256x128, .f32⟩
  | .local _ .vmem, ⟨7, _⟩ => ⟨S8x256x128, .f32⟩
  | .local _ .vmem, ⟨8, _⟩ => ⟨S8x256x128, .f32⟩
  | .local _ .vmem, ⟨9, _⟩ => ⟨S8x256x128, .f32⟩
  | .local _ .vmem, ⟨10, _⟩ => ⟨S3x8x256x128, .f32⟩
  | .local _ .vmem, ⟨11, _⟩ => ⟨S3x8x256x128, .f32⟩
  | _, _ => ⟨S256x256x256, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_call0_v0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9_0 : Ref sig .tc := ⟨.hbm, 16, rfl⟩
abbrev main_v9_1 : Ref sig .tc := ⟨.hbm, 17, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨2, ![32, 2], ![false, false]⟩

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_3 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat, arg1.toNat]

abbrev stage0_0 : Fin 1 → Memref sig .tc .vmem S128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S8x256x128 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S8x256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S8x256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S3x8x256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

class Facts₀ : Prop where
  bcast_S_S256 : S_.BroadcastsInDim S256 (![] : Fin 0 → Fin S256.rank)
  slices_S256_S128_0 : S256.Slices ![0] S128
  slices_S256_S128_128 : S256.Slices ![128] S128
  inb_S8x256x128_S8x256x128_0_0_0 : ∀ a, (![0, 0, 0] : Fin 3 → Nat) a + S8x256x128.size a ≤ S8x256x128.size a
  h_S8x256x128 : 0 < S8x256x128.numel
  inb_S128_S128_0 : ∀ a, (![0] : Fin 1 → Nat) a + S128.size a ≤ S128.size a
  h_S128 : 0 < S128.numel
  shapeCasts_S128_S128 : S128.ShapeCasts S128
  shapeCasts_S128_S1x1x128 : S128.ShapeCasts S1x1x128
  broadcasts_S1x1x128_S8x256x128 : S1x1x128.Broadcasts S8x256x128
  shapeCasts_S8x256x128_S8x256x128x1 : S8x256x128.ShapeCasts S8x256x128x1
  shapeCasts_S8x256x128x1_S8x256x128 : S8x256x128x1.ShapeCasts S8x256x128
  natLt_1_32 : 1 < 32
  inb_S3x8x256x128_S1x8x256x128_0_0_0_0 : ∀ a, (![0, 0, 0, 0] : Fin 4 → Nat) a + S1x8x256x128.size a ≤ S3x8x256x128.size a
  h_S1x8x256x128 : 0 < S1x8x256x128.numel
  shapeCasts_S1x8x256x128_S8x256x128 : S1x8x256x128.ShapeCasts S8x256x128
  shapeCasts_S8x256x128_S1x8x256x128 : S8x256x128.ShapeCasts S1x8x256x128
  inb_S3x8x256x128_S1x8x256x128_1_0_0_0 : ∀ a, (![1, 0, 0, 0] : Fin 4 → Nat) a + S1x8x256x128.size a ≤ S3x8x256x128.size a
  inb_S3x8x256x128_S1x8x256x128_2_0_0_0 : ∀ a, (![2, 0, 0, 0] : Fin 4 → Nat) a + S1x8x256x128.size a ≤ S3x8x256x128.size a
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S128.size a ≤ S128.size a
  hwx0_0 : ∀ i : grid0.Coords, EltTy.bits .f32 = 32 ∨ (Rect.block (s := S128) S128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128.size a ≤ S128.size a
  hwx0_1 : ∀ i : grid0.Coords, EltTy.bits .f32 = 32 ∨ (Rect.block (s := S128) S128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8x256x128.size a ≤ S256x256x256.size a
  hwx0_4 : ∀ i : grid0.Coords, EltTy.bits .i32 = 32 ∨ (Rect.block (s := S256x256x256) S8x256x128.size (cc0_transform_4 i) (hinb0_4 i)).WholeWords (EltTy.packing .i32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S8x256x128.size a ≤ S256x256x256.size a
  hwx0_5 : ∀ i : grid0.Coords, EltTy.bits .f32 = 32 ∨ (Rect.block (s := S256x256x256) S8x256x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S8x256x128.size a ≤ S256x256x256.size a
  hwx0_6 : ∀ i : grid0.Coords, EltTy.bits .f32 = 32 ∨ (Rect.block (s := S256x256x256) S8x256x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S3x8x256x128.size a ≤ S3x256x256x256.size a
  hwx0_7 : ∀ i : grid0.Coords, EltTy.bits .f32 = 32 ∨ (Rect.block (s := S3x256x256x256) S3x8x256x128.size (cc0_transform_7 i) (hinb0_7 i)).WholeWords (EltTy.packing .f32)

variable [Facts₀]

abbrev win0_0 : Pipeline.Window sig grid0 :=
  Pipeline.Window.ofSpec (Memref.whole main_v5) S128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v6) S128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v7) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v8) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg0) S8x256x128.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg3) S8x256x128.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v9_0) S8x256x128.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v9_1) S3x8x256x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S256x256x256 : Shape := ⟨3, ![256, 256, 256]⟩
abbrev S256 : Shape := ⟨1, ![256]⟩
abbrev S_ : Shape := ⟨0, ![]⟩
abbrev S256x256x256x1 : Shape := ⟨4, ![256, 256, 256, 1]⟩
abbrev S1x256x256x256 : Shape := ⟨4, ![1, 256, 256, 256]⟩
abbrev S3x256x256x256 : Shape := ⟨4, ![3, 256, 256, 256]⟩

abbrev nBuf : Space → Nat
  | .hbm => 46
  | .vmem => 0
  | .smem => 0
  | _ => 0

abbrev bufTy : (tb : Table) → Fin (tcTables nBuf tb) → BufTy
  | .hbm, ⟨0, _⟩ => ⟨S256x256x256, .i32⟩
  | .hbm, ⟨1, _⟩ => ⟨S256, .f32⟩
  | .hbm, ⟨2, _⟩ => ⟨S256, .i32⟩
  | .hbm, ⟨3, _⟩ => ⟨S256x256x256, .f32⟩
  | .hbm, ⟨4, _⟩ => ⟨S256, .i32⟩
  | .hbm, ⟨5, _⟩ => ⟨S_, .i32⟩
  | .hbm, ⟨6, _⟩ => ⟨S256, .i32⟩
  | .hbm, ⟨7, _⟩ => ⟨S256, .i1⟩
  | .hbm, ⟨8, _⟩ => ⟨S_, .f32⟩
  | .hbm, ⟨9, _⟩ => ⟨S256, .f32⟩
  | .hbm, ⟨10, _⟩ => ⟨S256, .f32⟩
  | .hbm, ⟨11, _⟩ => ⟨S_, .i32⟩
  | .hbm, ⟨12, _⟩ => ⟨S256x256x256, .i32⟩
  | .hbm, ⟨13, _⟩ => ⟨S256x256x256, .i1⟩
  | .hbm, ⟨14, _⟩ => ⟨S_, .i32⟩
  | .hbm, ⟨15, _⟩ => ⟨S256x256x256, .i32⟩
  | .hbm, ⟨16, _⟩ => ⟨S256x256x256, .i32⟩
  | .hbm, ⟨17, _⟩ => ⟨S256x256x256, .i32⟩
  | .hbm, ⟨18, _⟩ => ⟨S256x256x256x1, .i32⟩
  | .hbm, ⟨19, _⟩ => ⟨S256x256x256, .f32⟩
  | .hbm, ⟨20, _⟩ => ⟨S_, .i32⟩
  | .hbm, ⟨21, _⟩ => ⟨S256x256x256, .i32⟩
  | .hbm, ⟨22, _⟩ => ⟨S256x256x256, .i1⟩
  | .hbm, ⟨23, _⟩ => ⟨S_, .i32⟩
  | .hbm, ⟨24, _⟩ => ⟨S256x256x256, .i32⟩
  | .hbm, ⟨25, _⟩ => ⟨S256x256x256, .i1⟩
  | .hbm, ⟨26, _⟩ => ⟨S_, .i32⟩
  | .hbm, ⟨27, _⟩ => ⟨S256x256x256, .i32⟩
  | .hbm, ⟨28, _⟩ => ⟨S256x256x256, .i32⟩
  | .hbm, ⟨29, _⟩ => ⟨S256x256x256, .i32⟩
  | .hbm, ⟨30, _⟩ => ⟨S256x256x256x1, .i32⟩
  | .hbm, ⟨31, _⟩ => ⟨S256x256x256, .i32⟩
  | .hbm, ⟨32, _⟩ => ⟨S_, .i32⟩
  | .hbm, ⟨33, _⟩ => ⟨S256x256x256, .i32⟩
  | .hbm, ⟨34, _⟩ => ⟨S256x256x256, .i1⟩
  | .hbm, ⟨35, _⟩ => ⟨S256x256x256, .i1⟩
  | .hbm, ⟨36, _⟩ => ⟨S256x256x256, .i1⟩
  | .hbm, ⟨37, _⟩ => ⟨S256x256x256, .i1⟩
  | .hbm, ⟨38, _⟩ => ⟨S256x256x256, .i1⟩
  | .hbm, ⟨39, _⟩ => ⟨S1x256x256x256, .i1⟩
  | .hbm, ⟨40, _⟩ => ⟨S1x256x256x256, .i1⟩
  | .hbm, ⟨41, _⟩ => ⟨S1x256x256x256, .i1⟩
  | .hbm, ⟨42, _⟩ => ⟨S3x256x256x256, .i1⟩
  | .hbm, ⟨43, _⟩ => ⟨S3x256x256x256, .f32⟩
  | .hbm, ⟨44, _⟩ => ⟨S256x256x256, .f32⟩
  | .hbm, ⟨45, _⟩ => ⟨S256x256x256, .f32⟩
  | _, _ => ⟨S256x256x256, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_call0_v0 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_c_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c_2 : Ref sig .tc := ⟨.hbm, 20, rfl⟩
abbrev main_v11 : Ref sig .tc := ⟨.hbm, 21, rfl⟩
abbrev main_v12 : Ref sig .tc := ⟨.hbm, 22, rfl⟩
abbrev main_c_3 : Ref sig .tc := ⟨.hbm, 23, rfl⟩
abbrev main_v13 : Ref sig .tc := ⟨.hbm, 24, rfl⟩
abbrev main_v14 : Ref sig .tc := ⟨.hbm, 25, rfl⟩
abbrev main_c_4 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_c_5 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩

abbrev nD : Nat := 1
abbrev τ : Topo := Topo.v7x

variable {F : FTy → Type} [FloatOps F]

class Facts₀ : Prop where
  bcast_S_S256 : S_.BroadcastsInDim S256 (![] : Fin 0 → Fin S256.rank)
  bcast_S_S256x256x256 : S_.BroadcastsInDim S256x256x256 (![] : Fin 0 → Fin S256x256x256.rank)
  bcast_S256x256x256_S256x256x256x1_0_1_2 : S256x256x256.BroadcastsInDim S256x256x256x1 (![0, 1, 2] : Fin 3 → Fin S256x256x256x1.rank)
  bcast_S256x256x256_S1x256x256x256_1_2_3 : S256x256x256.BroadcastsInDim S1x256x256x256 (![1, 2, 3] : Fin 3 → Fin S1x256x256x256.rank)
  concatenates_S1x256x256x256_S1x256x256x256_S1x256x256x256_S3x256x256x256_d0 : Shape.Concatenates [S1x256x256x256, S1x256x256x256, S1x256x256x256] S3x256x256x256 0
  gather_S256_S256x256x256x1_S256x256x256_n_0_n_n_0_3_1_wf : GatherDims.WF S256 S256x256x256x1 S256x256x256 [] [0] [] [0] [] 3 ![1]

variable [Facts₀]

def gather_S256_S256x256x256x1_S256x256x256_n_0_n_n_0_3_1 : GatherDims S256 S256x256x256x1 S256x256x256 where
  offsetDims := []
  collapsedSliceDims := [0]
  operandBatchingDims := []
  startIndicesBatchingDims := []
  startIndexMap := [0]
  indexVectorDim := 3
  sliceSizes := ![1]
  wf := gather_S256_S256x256x256x1_S256x256x256_n_0_n_n_0_3_1_wf

class Facts : Prop extends Facts₀ where

variable [Facts]
-- ==== Proof.LabelWords.lean ====
/-
  A vessel label is a 32-bit word read as a table index.  The reference looks the label up in a 256-entry
  table after jnp's index normalisation (a negative word moved up by 256, then clamped into the table); the
  kernel splits the table into its lower and upper halves of 128 entries, looks the label's low seven bits
  up in both halves and keeps the upper half's entry when the label is at least 128.  For a label in
  `[0, 256)` the two readings meet the same table entry: `n = 128 * (n / 128) + n % 128`, and the low seven
  bits of `n` are `n % 128`.  Both facts are decided over the 256 labels.
-/
import Idealize.ShloMosaic.PureOps.Ideal
import Idealize.ShloMosaic.Lib.IdealHost
import Idealize.ShloMosaic.Lib.ValueIdx
import Idealize.ShloMosaic.Lib.StableHlo.Predicate

noncomputable section

namespace Cert.Vessel

open Idealize.ShloMosaic Idealize.ShloMosaic.ValueIdx

/-- The lane the kernel gathers from: the label's low seven bits (the sign test on them never fires). -/
def laneWord (L : BitVec 32) : BitVec 32 :=
  Scalar.select (IntOp.cmpi .slt (IntOp.andi L 127#32) 0#32) (IntOp.addi (IntOp.andi L 127#32) 128#32) (IntOp.andi L 127#32)

/-- The start index the reference gathers at: jnp's normalisation of a negative index. -/
def startWord (L : BitVec 32) : BitVec 32 :=
  Scalar.select (IntOp.cmpi .slt L 0#32) (IntOp.addi L 256#32) L

/-- A label in the label range: what the precondition states of every voxel. -/
def InRange (L : BitVec 32) : Prop := IntOp.cmpi .sge L 0#32 = 1#1 ∧ IntOp.cmpi .slt L 256#32 = 1#1

/-- A word in the label range is one of the 256 labels. -/
theorem InRange.exists_fin {L : BitVec 32} (h : InRange L) : ∃ n : Fin 256, L = BitVec.ofNat 32 n.val := by
  obtain ⟨h0, h1⟩ := h
  unfold IntOp.cmpi at h0 h1
  have e0 : (0#32 : BitVec 32).toInt = 0 := by decide
  have e1 : (256#32 : BitVec 32).toInt = 256 := by decide
  have g0 : (0#32 : BitVec 32).sle L = true := (StableHlo.Predicate.ofBool_eq_one_iff _).mp h0
  have g1 : L.slt 256#32 = true := (StableHlo.Predicate.ofBool_eq_one_iff _).mp h1
  rw [BitVec.sle, decide_eq_true_eq, e0] at g0
  rw [BitVec.slt, decide_eq_true_eq, e1] at g1
  have hlt : L.toNat < 2 ^ 32 := L.isLt
  have hc := BitVec.toInt_eq_toNat_cond L
  have hn : L.toNat < 256 := by
    split at hc <;> omega
  exact ⟨⟨L.toNat, hn⟩, BitVec.eq_of_toNat_eq (by rw [BitVec.toNat_ofNat]; exact (Nat.mod_eq_of_lt hlt).symm)⟩

/-- The three word facts, decided label by label: the kernel's lane is the label modulo 128, its half test is
    `128 ≤ label`, and the reference's clamped start index is the label itself. -/
theorem label_facts : ∀ n : Fin 256,
    (laneWord (BitVec.ofNat 32 n.val)).toNat % 128 = n.val % 128
    ∧ (IntOp.cmpi .sge (BitVec.ofNat 32 n.val) 128#32 = BitVec.ofBool (decide (128 ≤ n.val)))
    ∧ min (startWord (BitVec.ofNat 32 n.val)).toInt.toNat (256 - 1) = n.val := by
  decide +kernel

/-- The reference's reading of a 256-entry table at a label word. -/
def look {α : Type} (T : (⟨1, ![256]⟩ : Shape).Idx → α) (L : BitVec 32) : α :=
  T (ix1 ⟨min (startWord L).toInt.toNat (256 - 1), by omega⟩)

/-- THE SPLIT LOOKUP: on a label in range, the upper half's entry at the label's lane when the label is at least
    128, the lower half's otherwise, is the table's entry at the label. -/
theorem look_split {α : Type} (T : (⟨1, ![256]⟩ : Shape).Idx → α) (L : BitVec 32) (hL : InRange L)
    (lo hi : (⟨1, ![128]⟩ : Shape).Idx → α)
    (hlo : ∀ k : Fin 128, lo (ix1 k) = T (ix1 ⟨0 + k.val, by omega⟩))
    (hhi : ∀ k : Fin 128, hi (ix1 k) = T (ix1 ⟨128 + k.val, by omega⟩)) :
    Scalar.select (IntOp.cmpi .sge L 128#32)
        (hi (ix1 ⟨(laneWord L).toNat % 128, Nat.mod_lt _ (by decide)⟩))
        (lo (ix1 ⟨(laneWord L).toNat % 128, Nat.mod_lt _ (by decide)⟩))
      = look T L := by
  obtain ⟨n, rfl⟩ := hL.exists_fin
  obtain ⟨f1, f2, f3⟩ := label_facts n
  unfold look Scalar.select
  rw [f2, hlo, hhi]
  by_cases hn : 128 ≤ n.val
  · rw [if_pos (by rw [decide_eq_true hn]; rfl)]
    exact congrArg T (congrArg ix1 (Fin.ext (by
      show 128 + (laneWord (BitVec.ofNat 32 n.val)).toNat % 128 = min (startWord (BitVec.ofNat 32 n.val)).toInt.toNat (256 - 1)
      omega)))
  · rw [if_neg (by rw [decide_eq_false hn]; decide)]
    exact congrArg T (congrArg ix1 (Fin.ext (by
      show 0 + (laneWord (BitVec.ofNat 32 n.val)).toNat % 128 = min (startWord (BitVec.ofNat 32 n.val)).toInt.toNat (256 - 1)
      omega)))

/-- An integer word converted exactly compares equal to the float one exactly when the word is one. -/
theorem cmp_sitofp_one (x : BitVec 32) :
    Ideal.cmp .oeq (((x.toInt : ℝ) : EReal)) (Ideal.ofBits .f32 0x3F800000#32) = IntOp.cmpi .eq x 1#32 := by
  rw [Ideal.ofBits_one_f32]
  have h1 : (1#32 : BitVec 32).toInt = 1 := by decide
  have key : (((x.toInt : ℝ) : EReal) = 1) ↔ x = 1#32 := by
    constructor
    · intro h
      have h' : ((x.toInt : ℝ) : EReal) = ((1 : ℝ) : EReal) := h
      have h2 : (x.toInt : ℝ) = 1 := EReal.coe_eq_coe_iff.mp h'
      have h3 : x.toInt = 1 := by exact_mod_cast h2
      exact BitVec.eq_of_toInt_eq (h3.trans h1.symm)
    · rintro rfl
      rw [h1]; simp
  show BitVec.ofBool (decide (((x.toInt : ℝ) : EReal) = 1)) = BitVec.ofBool (x == 1#32)
  congr 1
  by_cases hx : x = 1#32
  · rw [decide_eq_true (key.mpr hx)]; simp [hx]
  · rw [decide_eq_false (fun h => hx (key.mp h))]; simp [hx]

/-- A one-bit word widened and converted signed is the bit converted unsigned. -/
theorem sitofp_widen_bit (b : BitVec 1) :
    (((b.setWidth 32).toInt : ℝ) : EReal) = (((b.toNat : ℕ) : ℝ) : EReal) := by
  have h : (b.setWidth 32).toInt = (b.toNat : ℤ) := by revert b; decide
  rw [h]; simp

/-- Flipping a bit by exclusive-or with one is its complement. -/
theorem xor_one_bit (b : BitVec 1) : IntOp.xori b 1#1 = ~~~b := by
  revert b; decide

/-! ## The two results at one voxel -/

variable {F : FTy → Type} [FloatOps F]

/-- The scaled volume at a voxel: a vessel voxel (label not zero) is multiplied by its label's table entry, a
    background voxel is kept. -/
def outAt (T : (⟨1, ![256]⟩ : Shape).Idx → F .f32) (p : F .f32) (L : BitVec 32) : F .f32 :=
  Scalar.select (IntOp.cmpi .ne L 0#32) (FloatOps.mulf p (look T L)) p

/-- The three class bits at a voxel: channel 0 background, channel 1 a vessel whose label's class word is one
    ("dark"), channel 2 the other vessels ("bright"). -/
def classBit (D : (⟨1, ![256]⟩ : Shape).Idx → BitVec 32) (L : BitVec 32) (k : Nat) : BitVec 1 :=
  if k = 0 then ~~~(IntOp.cmpi .ne L 0#32)
  else if k = 1 then IntOp.andi (IntOp.cmpi .eq (look D L) 1#32) (IntOp.cmpi .ne L 0#32)
  else IntOp.andi (IntOp.cmpi .ne L 0#32) (~~~(IntOp.andi (IntOp.cmpi .eq (look D L) 1#32) (IntOp.cmpi .ne L 0#32)))

/-- The one-hot volume at a channel and a voxel: the class bit as a number. -/
def hotAt (D : (⟨1, ![256]⟩ : Shape).Idx → BitVec 32) (L : BitVec 32) (k : Nat) : F .f32 :=
  FloatOps.uitofp .f32 (classBit D L k)

/-- The voxel under a one-hot index `(k, a, b, c)`. -/
abbrev voxOf (j : (⟨4, ![3, 256, 256, 256]⟩ : Shape).Idx) : (⟨3, ![256, 256, 256]⟩ : Shape).Idx := fun a => match a with
  | ⟨0, _⟩ => ⟨(j 1).val, (j 1).isLt⟩
  | ⟨1, _⟩ => ⟨(j 2).val, (j 2).isLt⟩
  | ⟨2, _⟩ => ⟨(j 3).val, (j 3).isLt⟩

/-- THE SCALED VOLUME as one function of the labels, the intensity table and the volume. -/
def outVol (lab : (⟨3, ![256, 256, 256]⟩ : Shape).Idx → BitVec 32) (T : (⟨1, ![256]⟩ : Shape).Idx → F .f32)
    (par : (⟨3, ![256, 256, 256]⟩ : Shape).Idx → F .f32) : (⟨3, ![256, 256, 256]⟩ : Shape).Idx → F .f32 :=
  fun i => outAt T (par i) (lab i)

/-- THE ONE-HOT VOLUME as one function of the labels and the class table. -/
def hotVol (lab : (⟨3, ![256, 256, 256]⟩ : Shape).Idx → BitVec 32) (D : (⟨1, ![256]⟩ : Shape).Idx → BitVec 32) :
    (⟨4, ![3, 256, 256, 256]⟩ : Shape).Idx → F .f32 :=
  fun j => hotAt D (lab (voxOf j)) (j 0).val

end Cert.Vessel

end
-- ==== Proof.PreRange.lean ====
/-
  What the precondition says of the labels.  The printed predicate is a conjunction of three `jnp.all`s; its last
  conjunct is the `and`-reduction, over every voxel, of `0 ≤ label` and `label < 256` (signed compares).  The
  predicate being one therefore puts every voxel's label in the label range.  The two finiteness conjuncts are
  not used: the kernel and the reference apply the same exact multiplication to the same two numbers.
-/
import proofs.«412224_j74156905333422_2_alg».proof.Pre_finite_inputs
import proofs.«412224_j74156905333422_2_alg».proof.Proof.LabelWords
import Idealize.ShloMosaic.Lib.ReduceAll

noncomputable section

namespace Cert.Vessel

open Idealize.ShloMosaic

/-- Under the precondition every voxel's label is in `[0, 256)`. -/
theorem labels_in_range [Cert.Pre_finite_inputs.Facts] {F : FTy → Type} [FloatOps F]
    (a0 : IVec Cert.Pre_finite_inputs.S256x256x256 32) (a1 : FVec F Cert.Pre_finite_inputs.S256 .f32)
    (a2 : IVec Cert.Pre_finite_inputs.S256 32) (a3 : FVec F Cert.Pre_finite_inputs.S256x256x256 .f32)
    (h : Cert.Pre_finite_inputs.fn (F := F) a0 a1 a2 a3 = fun _ => 1#1)
    (i : Cert.Pre_finite_inputs.S256x256x256.Idx) : InRange (a0 i) := by
  have h0 := congrFun h (fun d => d.elim0)
  dsimp only [Cert.Pre_finite_inputs.fn] at h0
  obtain ⟨-, h14⟩ := IntOp.andi_eq_one.mp h0
  haveI : Subsingleton Cert.Pre_finite_inputs.S_.Idx := ⟨fun a b => funext fun d => d.elim0⟩
  have hi := Host.reduce_andi_all _ _ _ _ _ h14 i
  exact IntOp.andi_eq_one.mp hi

end Cert.Vessel

end
-- ==== Proof.RefPoint.lean ====
/-
  The reference, read at one voxel.  Its scaled volume at voxel `i` is the voxel's number times the intensity
  table's entry at the label (the table read through jnp's gather: the label normalised, then clamped into the
  table), kept unscaled on background; its one-hot volume at channel `k` and voxel `i` is the `k`-th class bit
  of the label as a number (the three bit volumes stacked along a new leading axis).
-/
import proofs.«412224_j74156905333422_2_alg».proof.Proof.Gen.ReferenceIdeal.Read
import proofs.«412224_j74156905333422_2_alg».proof.Proof.LabelWords
import Idealize.ShloMosaic.Lib.ValueIdx
import Idealize.ShloMosaic.Lib.Pipeline.Value

noncomputable section

namespace Cert.Vessel.Ref

open Cert.ReferenceIdeal Cert.ReferenceIdeal.Gen Cert.ReferenceIdeal.Read Idealize.ShloMosaic Idealize.ShloMosaic.ValueIdx
open Cert.Vessel

variable {F : FTy → Type} [FloatOps F]

/-- The start-indices index `[a, b, c, 0]` of voxel `(a, b, c)`. -/
abbrev startIdx (j : S256x256x256.Idx) : S256x256x256x1.Idx := ix4 (j 0) (j 1) (j 2) (0 : Fin 1)

/-- THE GATHER READ AT A VOXEL: the table at the voxel's start index, read signed and clamped into the table. -/
theorem gather_apply {α : Type} {w : Nat} (x : S256.Idx → α) (idx : IVec S256x256x256x1 w) (j : S256x256x256.Idx) :
    Host.gather gather_S256_S256x256x256x1_S256x256x256_n_0_n_n_0_3_1 x idx j
      = x (ix1 ⟨min (idx (startIdx j)).toInt.toNat (256 - 1), by omega⟩) := by
  unfold Host.gather
  congr 1
  funext a
  obtain rfl : a = 0 := Subsingleton.elim _ _
  refine Fin.ext ?_
  show gather_S256_S256x256x256x1_S256x256x256_n_0_n_n_0_3_1.start j idx 0
      + gather_S256_S256x256x256x1_S256x256x256_n_0_n_n_0_3_1.batchCoord j 0
      + gather_S256_S256x256x256x1_S256x256x256_n_0_n_n_0_3_1.offCoord j 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ gather_S256_S256x256x256x1_S256x256x256_n_0_n_n_0_3_1.startIndexMap from List.mem_singleton.mpr rfl)]
  have hsi : gather_S256_S256x256x256x1_S256x256x256_n_0_n_n_0_3_1.siIdx j
      ⟨List.idxOf (0 : Fin 1) gather_S256_S256x256x256x1_S256x256x256_n_0_n_n_0_3_1.startIndexMap,
        List.idxOf_lt_length_iff.2 (List.mem_singleton.mpr rfl)⟩ = startIdx j := by
    funext b; refine Fin.ext ?_
    match b with
    | ⟨0, _⟩ => rfl
    | ⟨1, _⟩ => rfl
    | ⟨2, _⟩ => rfl
    | ⟨3, _⟩ => rfl
  rw [hsi]
  rfl

/-- The start index the reference gathers at, for voxel `i`: the voxel's label normalised. -/
theorem start_apply (x0 : (⟨S256x256x256, .i32⟩ : BufTy).Contents (Elt F)) (i : S256x256x256.Idx) :
    val_main_v9 (F := F) x0 (startIdx i) = startWord (x0 i) := by
  rw [val_main_v9_apply]
  have e : idx_main_v9 (startIdx i) = i := by
    funext a
    match a with
    | ⟨0, _⟩ => rfl
    | ⟨1, _⟩ => rfl
    | ⟨2, _⟩ => rfl
  rw [e]; rfl

/-- The same normalisation is printed a second time for the class table's gather. -/
theorem start_apply' (x0 : (⟨S256x256x256, .i32⟩ : BufTy).Contents (Elt F)) (i : S256x256x256.Idx) :
    val_main_v18 (F := F) x0 (startIdx i) = startWord (x0 i) := by
  rw [val_main_v18_apply]
  have e : idx_main_v18 (startIdx i) = i := by
    funext a
    match a with
    | ⟨0, _⟩ => rfl
    | ⟨1, _⟩ => rfl
    | ⟨2, _⟩ => rfl
  rw [e]; rfl

/-- THE SCALED VOLUME AT A VOXEL. -/
theorem out_apply (x0 : (⟨S256x256x256, .i32⟩ : BufTy).Contents (Elt F)) (x1 : (⟨S256, .f32⟩ : BufTy).Contents (Elt F))
    (x3 : (⟨S256x256x256, .f32⟩ : BufTy).Contents (Elt F)) (i : S256x256x256.Idx) :
    val_main_v32 (F := F) x0 x1 x3 i = outVol x0 (val_main_v3 (F := F) x1) x3 i := by
  rw [val_main_v32_apply, val_main_v31_apply]
  unfold val_main_v10
  rw [gather_apply]
  simp only [start_apply]
  rfl

/-- The class word the reference reads for voxel `i`. -/
theorem class_apply (x0 : (⟨S256x256x256, .i32⟩ : BufTy).Contents (Elt F)) (x2 : (⟨S256, .i32⟩ : BufTy).Contents (Elt F))
    (i : S256x256x256.Idx) : val_main_v19 (F := F) x0 x2 i = look x2 (x0 i) := by
  unfold val_main_v19
  rw [gather_apply]
  simp only [start_apply']
  rfl

/-- The index `(0, a, b, c)` of a one-channel volume under a one-hot index `(k, a, b, c)`. -/
abbrev under (j : S3x256x256x256.Idx) : S1x256x256x256.Idx := fun a => match a with
  | ⟨0, _⟩ => ⟨0, Nat.one_pos⟩
  | ⟨1, _⟩ => ⟨(j 1).val, (j 1).isLt⟩
  | ⟨2, _⟩ => ⟨(j 2).val, (j 2).isLt⟩
  | ⟨3, _⟩ => ⟨(j 3).val, (j 3).isLt⟩

/-- Three volumes stacked along a new leading axis, read at `(k, a, b, c)`: the `k`-th volume at `(0, a, b, c)`. -/
theorem stack3_apply {α : Type} (u0 u1 u2 : S1x256x256x256.Idx → α)
    (h : Shape.Concatenates (([⟨S1x256x256x256, u0⟩, ⟨S1x256x256x256, u1⟩, ⟨S1x256x256x256, u2⟩] : List ((s : Shape) × (s.Idx → α))).map (·.1)) S3x256x256x256 0)
    (j : S3x256x256x256.Idx) :
    concatenate S3x256x256x256 0 [⟨S1x256x256x256, u0⟩, ⟨S1x256x256x256, u1⟩, ⟨S1x256x256x256, u2⟩] h j
      = (if (j 0).val = 0 then u0 else if (j 0).val = 1 then u1 else u2) (under j) := by
  have hj : (j 0).val < 3 := (j 0).isLt
  have hi : ∀ b : Fin S1x256x256x256.rank, b.cast (rfl : S1x256x256x256.rank = S3x256x256x256.rank) ≠ (0 : Fin S3x256x256x256.rank) →
      ((under j) b).val = (j (b.cast (rfl : S1x256x256x256.rank = S3x256x256x256.rank))).val := by
    intro b hb
    match b, hb with
    | ⟨0, _⟩, hb => exact absurd rfl hb
    | ⟨1, _⟩, _ => rfl
    | ⟨2, _⟩, _ => rfl
    | ⟨3, _⟩, _ => rfl
  rcases (show (j 0).val = 0 ∨ (j 0).val = 1 ∨ (j 0).val = 2 by omega) with h0 | h0 | h0
  · rw [if_pos h0]
    exact concatenate_apply_piece 0 _ h j 0 (by show (0 : Nat) < 3; decide) S1x256x256x256 u0 rfl rfl 0 rfl _ hi (by rw [h0]; rfl)
  · rw [if_neg (by omega), if_pos h0]
    exact concatenate_apply_piece 0 _ h j 1 (by show (1 : Nat) < 3; decide) S1x256x256x256 u1 rfl rfl 1 rfl _ hi (by rw [h0]; rfl)
  · rw [if_neg (by omega), if_neg (by omega)]
    exact concatenate_apply_piece 0 _ h j 2 (by show (2 : Nat) < 3; decide) S1x256x256x256 u2 rfl rfl 2 rfl _ hi (by rw [h0]; rfl)

/-- The voxel a stacked index `(0, a, b, c)` broadcasts from. -/
theorem unstack_idx (j : S3x256x256x256.Idx) :
    idx_main_v26 (under j) = voxOf j := by
  funext a
  match a with
  | ⟨0, _⟩ => rfl
  | ⟨1, _⟩ => rfl
  | ⟨2, _⟩ => rfl

/-- THE ONE-HOT VOLUME AT A CHANNEL AND A VOXEL. -/
theorem hot_apply (x0 : (⟨S256x256x256, .i32⟩ : BufTy).Contents (Elt F)) (x2 : (⟨S256, .i32⟩ : BufTy).Contents (Elt F))
    (j : S3x256x256x256.Idx) :
    val_main_v30 (F := F) x0 x2 j = hotVol x0 x2 j := by
  rw [val_main_v30_apply]
  unfold hotVol hotAt
  congr 1
  unfold val_main_v29
  rw [stack3_apply]
  unfold classBit
  by_cases h0 : (j 0).val = 0
  · rw [if_pos h0, if_pos h0, val_main_v26_apply, unstack_idx]; rfl
  · rw [if_neg h0, if_neg h0]
    by_cases h1 : (j 0).val = 1
    · rw [if_pos h1, if_pos h1, val_main_v27_apply]
      show val_main_v22 (F := F) x0 x2 (idx_main_v26 _) = _
      rw [unstack_idx, val_main_v22_apply, val_main_v21_apply, class_apply]; rfl
    · rw [if_neg h1, if_neg h1, val_main_v28_apply]
      show val_main_v24 (F := F) x0 x2 (idx_main_v26 _) = _
      rw [unstack_idx, val_main_v24_apply, val_main_v23_apply, val_main_v22_apply, val_main_v21_apply, class_apply]; rfl

end Cert.Vessel.Ref

end
-- ==== Proof.KernelPoint.lean ====
/-
  The kernel's body, read at one element of its block.  At block element `j` with label `L` and number `p` the
  body gathers, from each table half laid along the lanes, the entry at the label's low seven bits, keeps the
  upper half's entry when `L ≥ 128`, and stores `p` times the kept intensity entry (or `p` on background) and
  the three class bits as numbers, one channel per store.
-/
import proofs.«412224_j74156905333422_2_alg».proof.Proof.Gen.KernelIdeal.Frame
import proofs.«412224_j74156905333422_2_alg».proof.Proof.LabelWords
import Idealize.ShloMosaic.Lib.Pipeline.Value
import Idealize.ShloMosaic.Lib.ValueIdx

noncomputable section

namespace Cert.Vessel.Kernel

open Cert.KernelIdeal Cert.KernelIdeal.Gen Idealize.ShloMosaic Idealize.ShloMosaic.ValueIdx
open Cert.Vessel

variable {F : FTy → Type} [FloatOps F]

/-- The lane a block element gathers from, as a lane index. -/
abbrev laneOf (L : BitVec 32) : S128.Idx := ix1 ⟨(laneWord L).toNat % 128, Nat.mod_lt _ (by decide)⟩

/-- The lane coordinate of a block element. -/
abbrev lane (k : S8x256x128.Idx) : Fin 128 := ⟨(k 2).val, (k 2).isLt⟩

/-- A table half laid along the lanes of a block reads, at `k`, the half's entry at `k`'s lane. -/
theorem lanes_apply (x : Vec F S128 .f32) (k : S8x256x128.Idx) :
    broadcastTo S8x256x128 (shapeCast S1x1x128 (shapeCast S128 x shapeCasts_S128_S128) shapeCasts_S128_S1x1x128)
        broadcasts_S1x1x128_S8x256x128 k = x (ix1 (lane k)) := by
  rw [shapeCast_self]
  refine (broadcastTo_apply _ _ k (ix3 (0 : Fin 1) (0 : Fin 1) (lane k)) (fun a => ?_)).trans ?_
  · match a with
    | ⟨0, _⟩ => rfl
    | ⟨1, _⟩ => rfl
    | ⟨2, _⟩ => rfl
  · refine shapeCast_apply x _ _ (ix1 (lane k)) ?_
    rw [Shape.rowMajor_val_one, Shape.rowMajor_val_three]
    show (k 2).val = ((0 * 1 + 0) * 128 + (k 2).val)
    omega

/-- The lane gather of a table half laid along the lanes: the half's entry at the index word modulo 128. -/
theorem lane_gather_apply (x : Vec F S128 .f32) (w : IVec S8x256x128 32) (j : S8x256x128.Idx) :
    dynamicGather 2 (broadcastTo S8x256x128 (shapeCast S1x1x128 (shapeCast S128 x shapeCasts_S128_S128) shapeCasts_S128_S1x1x128)
        broadcasts_S1x1x128_S8x256x128) w j = x (ix1 ⟨(w j).toNat % 128, Nat.mod_lt _ (by decide)⟩) := by
  unfold dynamicGather
  rw [lanes_apply]
  rfl

/-- The kept table entry at a block element: the upper half's when the label is at least 128. -/
theorem kept_apply (v0 : Vec F S8x256x128 .i32) (lo hi : Vec F S128 .f32) (j : S8x256x128.Idx) :
    k0_pay6 v0 lo hi j = Scalar.select (IntOp.cmpi .sge (v0 j) 128#32) (hi (laneOf (v0 j))) (lo (laneOf (v0 j))) := by
  unfold k0_pay6
  simp only [shapeCast_shapeCast]
  show Scalar.select (k0_pay3 v0 j) (dynamicGather 2 _ _ j) (dynamicGather 2 _ _ j) = _
  rw [lane_gather_apply, lane_gather_apply]
  rfl

/-- The kept class entry compared with one, on a vessel voxel: the kernel's "dark" bit at a block element. -/
def darkBit (clo chi : Vec F S128 .f32) (L : BitVec 32) : BitVec 1 :=
  IntOp.andi (FloatOps.cmpf .oeq (Scalar.select (IntOp.cmpi .sge L 128#32) (chi (laneOf L)) (clo (laneOf L)))
      (FloatOps.ofBits .f32 0x3F800000#32)) (IntOp.cmpi .ne L 0#32)

theorem dark_apply (v0 : Vec F S8x256x128 .i32) (clo chi : Vec F S128 .f32) (j : S8x256x128.Idx) :
    k0_pay9 v0 (k0_pay2 v0) (k0_pay3 v0) (k0_pay4 clo) (k0_pay5 chi) (k0_pay7 v0) j = darkBit clo chi (v0 j) := by
  unfold k0_pay9 k0_pay4 k0_pay5
  simp only [shapeCast_shapeCast]
  show IntOp.andi (FloatOps.cmpf .oeq (Scalar.select (k0_pay3 v0 j) (dynamicGather 2 _ _ j) (dynamicGather 2 _ _ j)) _) (k0_pay8 v0 j) = _
  rw [lane_gather_apply, lane_gather_apply]
  rfl

theorem hz3 : (![0, 0, 0] : Fin 3 → Nat) = fun _ => 0 := funext fun a => by fin_cases a <;> rfl
theorem hz1 : (![0] : Fin 1 → Nat) = fun _ => 0 := funext fun a => by fin_cases a <;> rfl

/-- THE SCALED BLOCK at an element: the number times the kept intensity entry on a vessel voxel, the number itself
    on background. -/
theorem out6_apply (x0 x1 x2 x3 : Vec F S128 .f32) (x4 : Vec F S8x256x128 .i32) (x5 : Vec F S8x256x128 .f32)
    (j : S8x256x128.Idx) :
    out0_6 x0 x1 x2 x3 x4 x5 j
      = Scalar.select (IntOp.cmpi .ne (x4 j) 0#32)
          (FloatOps.mulf (x5 j) (Scalar.select (IntOp.cmpi .sge (x4 j) 128#32) (x1 (laneOf (x4 j))) (x0 (laneOf (x4 j)))))
          (x5 j) := by
  unfold out0_6
  rw [View.canon_unit_zero hz3]
  simp only [View.ld_unit_zero (S := S8x256x128) hz3, View.ld_unit_zero (S := S128) hz1]
  unfold k0_pay10
  show Scalar.select (k0_pay8 x4 j) (FloatOps.mulf (x5 j) (k0_pay6 x4 x0 x1 j)) (x5 j) = _
  rw [kept_apply]
  rfl

/-- The kernel's class bit of channel `k` at a label: background by flipping the vessel bit, "dark" as above, "bright"
    a vessel voxel that is not dark. -/
def kernelBit (clo chi : Vec F S128 .f32) (L : BitVec 32) (k : Nat) : BitVec 1 :=
  if k = 0 then IntOp.xori (IntOp.cmpi .ne L 0#32) 1#1
  else if k = 1 then darkBit clo chi L
  else IntOp.andi (IntOp.cmpi .ne L 0#32) (IntOp.xori (darkBit clo chi L) 1#1)

/-- The block element under a one-hot block index `(k, a, b, c)`. -/
abbrev inner (y : S3x8x256x128.Idx) : S8x256x128.Idx := fun a => match a with
  | ⟨0, _⟩ => ⟨(y 1).val, (y 1).isLt⟩
  | ⟨1, _⟩ => ⟨(y 2).val, (y 2).isLt⟩
  | ⟨2, _⟩ => ⟨(y 3).val, (y 3).isLt⟩

/-- The one-hot block as one function of its index: channel `k`'s class bit of the label under it, widened and converted. -/
def hotBlk (clo chi : Vec F S128 .f32) (x4 : Vec F S8x256x128 .i32) : S3x8x256x128.Idx → F .f32 :=
  fun y => FloatOps.sitofp .f32 ((kernelBit clo chi (x4 (inner y)) (y 0).val).setWidth 32)

/-- The block element `(x 1, x 2, x 3)` under a one-channel slab index `(0, x 1, x 2, x 3)`. -/
abbrev tailIdx (x : S1x8x256x128.Idx) : S8x256x128.Idx := fun a => match a with
  | ⟨0, _⟩ => ⟨(x 1).val, (x 1).isLt⟩
  | ⟨1, _⟩ => ⟨(x 2).val, (x 2).isLt⟩
  | ⟨2, _⟩ => ⟨(x 3).val, (x 3).isLt⟩

/-- A block stored as a one-channel slab reads, at a slab index, the block at the element under it. -/
theorem slab_apply {α : Type} (v : S8x256x128.Idx → α) (x : S1x8x256x128.Idx) :
    shapeCast S1x8x256x128 v shapeCasts_S8x256x128_S1x8x256x128 x = v (tailIdx x) := by
  refine (shapeCast_addUnit_apply (n := 3) ![8, 256, 128] v shapeCasts_S8x256x128_S1x8x256x128 x).trans ?_
  refine congrArg v (funext fun a => ?_)
  match a with
  | ⟨0, _⟩ => rfl
  | ⟨1, _⟩ => rfl
  | ⟨2, _⟩ => rfl

/-- A channel's slab of the one-hot block, at slab index `x`, lies over block element `(x 1, x 2, x 3)`. -/
theorem inner_emb (off0 : Nat) (inb : ∀ a, (![off0, 0, 0, 0] : Fin 4 → Nat) a + S1x8x256x128.size a ≤ S3x8x256x128.size a)
    (x : S1x8x256x128.Idx) :
    inner ((Rect.unit (s := S3x8x256x128) ![off0, 0, 0, 0] S1x8x256x128.size inb).emb x) = tailIdx x := by
  funext a
  refine Fin.ext ?_
  match a with
  | ⟨0, _⟩ => show 0 + 1 * (x 1).val = (x 1).val; omega
  | ⟨1, _⟩ => show 0 + 1 * (x 2).val = (x 2).val; omega
  | ⟨2, _⟩ => show 0 + 1 * (x 3).val = (x 3).val; omega

theorem chan_emb (off0 : Nat) (inb : ∀ a, (![off0, 0, 0, 0] : Fin 4 → Nat) a + S1x8x256x128.size a ≤ S3x8x256x128.size a)
    (x : S1x8x256x128.Idx) :
    (((Rect.unit (s := S3x8x256x128) ![off0, 0, 0, 0] S1x8x256x128.size inb).emb x) 0).val = off0 := by
  show off0 + 1 * (x 0).val = off0
  have : (x 0).val < 1 := (x 0).isLt
  omega

/-- The "bright" slab: the third store's payload at slab index `x` is the block function under it. -/
theorem slab_bright (x2 x3 : Vec F S128 .f32) (x4 : Vec F S8x256x128 .i32) (x : S1x8x256x128.Idx) :
    k0_pay1 (k0_pay13 x4 (k0_pay2 x4) (k0_pay3 x4) (k0_pay4 x2) (k0_pay5 x3) (k0_pay7 x4)) x
      = hotBlk x2 x3 x4 (r0_4.emb x) := by
  unfold k0_pay1 hotBlk
  rw [slab_apply, inner_emb, chan_emb]
  unfold k0_pay13
  show FloatOps.sitofp .f32 ((IntOp.andi (k0_pay8 x4 _) (IntOp.xori (k0_pay9 x4 (k0_pay2 x4) (k0_pay3 x4) (k0_pay4 x2) (k0_pay5 x3) (k0_pay7 x4) _) 1#1)).setWidth 32) = _
  rw [dark_apply]
  rfl

/-- The "dark" slab. -/
theorem slab_dark (x2 x3 : Vec F S128 .f32) (x4 : Vec F S8x256x128 .i32) (x : S1x8x256x128.Idx) :
    k0_pay12 x4 (k0_pay2 x4) (k0_pay3 x4) (k0_pay4 x2) (k0_pay5 x3) (k0_pay7 x4) x
      = hotBlk x2 x3 x4 (r0_3.emb x) := by
  unfold k0_pay12 hotBlk
  rw [slab_apply, inner_emb, chan_emb]
  show FloatOps.sitofp .f32 ((k0_pay9 x4 (k0_pay2 x4) (k0_pay3 x4) (k0_pay4 x2) (k0_pay5 x3) (k0_pay7 x4) _).setWidth 32) = _
  rw [dark_apply]
  rfl

/-- The background slab. -/
theorem slab_background (x2 x3 : Vec F S128 .f32) (x4 : Vec F S8x256x128 .i32) (x : S1x8x256x128.Idx) :
    k0_pay11 x4 x = hotBlk x2 x3 x4 (r0_2.emb x) := by
  unfold k0_pay11 hotBlk
  rw [slab_apply, inner_emb, chan_emb]
  rfl

/-- THE ONE-HOT BLOCK at an index: its three stores, one channel each, are the three slabs of one function. -/
theorem out7_apply (x0 x1 x2 x3 : Vec F S128 .f32) (x4 : Vec F S8x256x128 .i32) (x5 : Vec F S8x256x128 .f32)
    (y : S3x8x256x128.Idx) :
    out0_7 x0 x1 x2 x3 x4 x5 y = hotBlk x2 x3 x4 y := by
  unfold out0_7
  simp only [View.ld_unit_zero (S := S8x256x128) hz3, View.ld_unit_zero (S := S128) hz1]
  refine View.canon_apply_of_pieces (hotBlk x2 x3 x4) _ ?_ y (cover0_7 _ _ _ y)
  intro p hp x
  simp only [List.mem_cons, List.not_mem_nil, or_false] at hp
  rcases hp with rfl | rfl | rfl
  · exact slab_bright x2 x3 x4 x
  · exact slab_dark x2 x3 x4 x
  · exact slab_background x2 x3 x4 x

/-! ## The two blocks against the specification, at the exact reals -/

/-- On a label in range, with the two halves cut from the table `T`, the scaled block's element is the
    specification's value: the split lookup meets the table's entry at the label. -/
theorem out6_point (T : S256.Idx → F .f32) (x0 x1 x2 x3 : Vec F S128 .f32) (x4 : Vec F S8x256x128 .i32)
    (x5 : Vec F S8x256x128 .f32)
    (hlo : ∀ k : Fin 128, x0 (ix1 k) = T (ix1 ⟨0 + k.val, by omega⟩))
    (hhi : ∀ k : Fin 128, x1 (ix1 k) = T (ix1 ⟨128 + k.val, by omega⟩))
    (j : S8x256x128.Idx) (hL : InRange (x4 j)) :
    out0_6 x0 x1 x2 x3 x4 x5 j = outAt T (x5 j) (x4 j) := by
  rw [out6_apply]
  unfold outAt
  rw [look_split T (x4 j) hL x0 x1 hlo hhi]

/-- On a label in range, with the two halves cut from the class words converted exactly, the kernel's class bit is the
    specification's: the kept entry is the label's class word as a number, which equals one exactly when the word is one. -/
theorem kernelBit_eq (D : S256.Idx → BitVec 32) (clo chi : Vec Ideal S128 .f32)
    (hlo : ∀ k : Fin 128, clo (ix1 k) = (((D (ix1 ⟨0 + k.val, by omega⟩)).toInt : ℝ) : EReal))
    (hhi : ∀ k : Fin 128, chi (ix1 k) = (((D (ix1 ⟨128 + k.val, by omega⟩)).toInt : ℝ) : EReal))
    (L : BitVec 32) (hL : InRange L) (k : Nat) :
    kernelBit clo chi L k = classBit D L k := by
  have hd : darkBit clo chi L = IntOp.andi (IntOp.cmpi .eq (look D L) 1#32) (IntOp.cmpi .ne L 0#32) := by
    unfold darkBit
    rw [look_split (fun i => (((D i).toInt : ℝ) : EReal)) L hL clo chi hlo hhi]
    show IntOp.andi (Ideal.cmp .oeq (((look D L).toInt : ℝ) : EReal) (Ideal.ofBits .f32 0x3F800000#32)) _ = _
    rw [cmp_sitofp_one]
  unfold kernelBit classBit
  rw [hd, xor_one_bit, xor_one_bit]

/-- The one-hot block's element is the specification's value. -/
theorem out7_point (D : S256.Idx → BitVec 32) (x0 x1 x2 x3 : Vec Ideal S128 .f32) (x4 : Vec Ideal S8x256x128 .i32)
    (x5 : Vec Ideal S8x256x128 .f32)
    (hlo : ∀ k : Fin 128, x2 (ix1 k) = (((D (ix1 ⟨0 + k.val, by omega⟩)).toInt : ℝ) : EReal))
    (hhi : ∀ k : Fin 128, x3 (ix1 k) = (((D (ix1 ⟨128 + k.val, by omega⟩)).toInt : ℝ) : EReal))
    (y : S3x8x256x128.Idx) (hL : InRange (x4 (inner y))) :
    out0_7 x0 x1 x2 x3 x4 x5 y = hotAt (F := Ideal) D (x4 (inner y)) (y 0).val := by
  rw [out7_apply]
  unfold hotBlk hotAt
  rw [kernelBit_eq D x2 x3 hlo hhi _ hL]
  exact sitofp_widen_bit _

end Cert.Vessel.Kernel

end
-- ==== Proof.KernelTables.lean ====
/-
  The four tables the kernel's region finds.  Before the region, the kernel's host operations build the intensity
  table (entry 0 replaced by one) and convert the class words to numbers, then cut each into its lower and upper
  halves of 128 entries: entry `k` of a lower half is entry `k` of its table, entry `k` of an upper half is entry
  `128 + k`.
-/
import proofs.«412224_j74156905333422_2_alg».proof.Proof.Gen.KernelIdeal.Frame
import proofs.«412224_j74156905333422_2_alg».proof.Proof.LabelWords
import Idealize.ShloMosaic.Lib.StableHlo.Run
import Idealize.ShloMosaic.Lib.Pipeline.Value
import Idealize.ShloMosaic.Lib.ValueIdx

noncomputable section

namespace Cert.Vessel.Kernel

open Cert.KernelIdeal Cert.KernelIdeal.Gen Idealize.ShloMosaic Idealize.ShloMosaic.TcCoe Idealize.SL.Sem
open Idealize.ShloMosaic.StableHlo Idealize.ShloMosaic.ValueIdx
open Cert.Vessel

variable {F : FTy → Type} [FloatOps F]
variable (m : (ℓ : Loc nD τ sig) → Buf (Elt F) ℓ)

/-- The intensity table as the kernel's host operations build it: one at entry 0, the argument elsewhere. -/
def lutOf (x1 : FVec F S256 .f32) : FVec F S256 .f32 :=
  select (cmpi .eq (iotaInDim S256 32 0) (broadcastInDim S256 ![] bcast_S_S256 (constantI S_ 32 0#32)))
    (broadcastInDim S256 ![] bcast_S_S256 (constant S_ .f32 0x3F800000#32)) x1

/-- The lower half of the intensity table. -/
theorem V_lut_lo (c : Dev nD) :
    (V m c main_v5 : S128.Idx → Elt F .f32)
      = extractStridedSlice S128 ![0] (lutOf (m ((c : Thread nD τ).loc main_arg1))) slices_S256_S128_0 := by
  dsimp only [Gen.V]
  simp only [Gen.hostOps0, Gen.hostOps0_1, Gen.hostOps0_2, List.flatten_cons, List.flatten_nil, List.append_nil,
    List.cons_append, List.nil_append]
  after_results
  rfl

/-- The upper half of the intensity table. -/
theorem V_lut_hi (c : Dev nD) :
    (V m c main_v6 : S128.Idx → Elt F .f32)
      = extractStridedSlice S128 ![128] (lutOf (m ((c : Thread nD τ).loc main_arg1))) slices_S256_S128_128 := by
  dsimp only [Gen.V]
  simp only [Gen.hostOps0, Gen.hostOps0_1, Gen.hostOps0_2, List.flatten_cons, List.flatten_nil, List.append_nil,
    List.cons_append, List.nil_append]
  after_results
  rfl

/-- The class words as numbers. -/
def clsOf (x2 : IVec S256 32) : FVec F S256 .f32 := sitofp .f32 x2

/-- The lower half of the class table. -/
theorem V_cls_lo (c : Dev nD) :
    (V m c main_v7 : S128.Idx → Elt F .f32)
      = extractStridedSlice S128 ![0] (clsOf (F := F) (m ((c : Thread nD τ).loc main_arg2))) slices_S256_S128_0 := by
  dsimp only [Gen.V]
  simp only [Gen.hostOps0, Gen.hostOps0_1, Gen.hostOps0_2, List.flatten_cons, List.flatten_nil, List.append_nil,
    List.cons_append, List.nil_append]
  after_results
  rfl

/-- The upper half of the class table. -/
theorem V_cls_hi (c : Dev nD) :
    (V m c main_v8 : S128.Idx → Elt F .f32)
      = extractStridedSlice S128 ![128] (clsOf (F := F) (m ((c : Thread nD τ).loc main_arg2))) slices_S256_S128_128 := by
  dsimp only [Gen.V]
  simp only [Gen.hostOps0, Gen.hostOps0_1, Gen.hostOps0_2, List.flatten_cons, List.flatten_nil, List.append_nil,
    List.cons_append, List.nil_append]
  after_results
  rfl

/-- Entry `k` of a lower half is entry `k` of the table. -/
theorem half_lo_apply {α : Type} (x : S256.Idx → α) (k : Fin 128) :
    extractStridedSlice S128 ![0] x slices_S256_S128_0 (ix1 k) = x (ix1 ⟨0 + k.val, by omega⟩) :=
  extractStridedSlice_apply _ x _ (ix1 k) (ix1 ⟨0 + k.val, by omega⟩) (fun a => match a with | ⟨0, _⟩ => rfl)

/-- Entry `k` of an upper half is entry `128 + k` of the table. -/
theorem half_hi_apply {α : Type} (x : S256.Idx → α) (k : Fin 128) :
    extractStridedSlice S128 ![128] x slices_S256_S128_128 (ix1 k) = x (ix1 ⟨128 + k.val, by omega⟩) :=
  extractStridedSlice_apply _ x _ (ix1 k) (ix1 ⟨128 + k.val, by omega⟩) (fun a => match a with | ⟨0, _⟩ => rfl)

end Cert.Vessel.Kernel

end
-- ==== Proof.KernelVolume.lean ====
/-
  From blocks to the two volumes.  Grid point `t = (d, w)` reads the labels' and the volume's block
  `[8d, 8d + 8) × [0, 256) × [128w, 128w + 128)`, the four whole table halves, and writes the same block of the
  scaled volume and, for every channel, of the one-hot volume.  Each block written is the block of ONE
  whole-volume function (the body's element-wise value), and the 32 × 2 blocks tile the volumes: voxel
  `(a, b, c)` lies in the block of point `(a / 8, c / 128)`.
-/
import proofs.«412224_j74156905333422_2_alg».proof.Proof.Gen.KernelIdeal.Value
import proofs.«412224_j74156905333422_2_alg».proof.Proof.KernelPoint
import proofs.«412224_j74156905333422_2_alg».proof.Proof.KernelTables

noncomputable section

namespace Cert.Vessel.Kernel

open Cert.KernelIdeal Cert.KernelIdeal.Gen Cert.KernelIdeal.Value Idealize.ShloMosaic Idealize.ShloMosaic.TcCoe
open Idealize.SL.Sem Idealize.ShloMosaic.ValueIdx
open Idealize.ShloMosaic.Pipeline (Dat)
open Cert.Vessel

variable (m : (ℓ : Loc nD τ sig) → Buf (Elt Ideal) ℓ) (ρ : Dev nD → PrngReg)

/-- The printed index maps, decided over the 64 grid points: the tables' blocks are block 0, the labels' and the
    volume's blocks move with the scaled volume's, and the one-hot volume's block is the same block under every channel. -/
theorem idx_facts : ∀ t : Fin cfg0.N,
    win0_0.index t (0 : Fin 1) = 0 ∧ win0_1.index t (0 : Fin 1) = 0 ∧ win0_2.index t (0 : Fin 1) = 0 ∧ win0_3.index t (0 : Fin 1) = 0
    ∧ win0_4.index t (0 : Fin 3) = win0_6.index t (0 : Fin 3) ∧ win0_4.index t (1 : Fin 3) = win0_6.index t (1 : Fin 3)
    ∧ win0_4.index t (2 : Fin 3) = win0_6.index t (2 : Fin 3)
    ∧ win0_5.index t (0 : Fin 3) = win0_6.index t (0 : Fin 3) ∧ win0_5.index t (1 : Fin 3) = win0_6.index t (1 : Fin 3)
    ∧ win0_5.index t (2 : Fin 3) = win0_6.index t (2 : Fin 3)
    ∧ win0_7.index t (0 : Fin 4) = 0 ∧ win0_7.index t (1 : Fin 4) = win0_6.index t (0 : Fin 3)
    ∧ win0_7.index t (2 : Fin 4) = 0 ∧ win0_7.index t (3 : Fin 4) = win0_6.index t (2 : Fin 3)
    ∧ win0_6.index t (0 : Fin 3) ≤ 31 ∧ win0_6.index t (1 : Fin 3) = 0 ∧ win0_6.index t (2 : Fin 3) ≤ 1 :=
  (by decide +kernel : ∀ t : Fin grid0.N, _)

/-- Every block of the volume is some point's. -/
theorem idx_onto : ∀ (q0 : Fin 32) (q2 : Fin 2), ∃ t : Fin cfg0.N, win0_6.index t = ![q0.val, 0, q2.val] :=
  (by decide +kernel : ∀ (q0 : Fin 32) (q2 : Fin 2), ∃ t : Fin grid0.N, win0_6.index t = ![q0.val, 0, q2.val])

/-! ## The table halves' blocks are the halves -/

theorem lut_lo_blk (c : Dev nD) (t : Fin cfg0.N) (k : Fin 128) :
    (iblk m c 0 t : Vec Ideal S128 .f32) (ix1 k) = lutOf (F := Ideal) (m ((c : Thread nD τ).loc main_arg1)) (ix1 ⟨0 + k.val, by omega⟩) := by
  obtain ⟨e0, -⟩ := idx_facts t
  refine Eq.trans ?_ ((congrFun (V_lut_lo m c) (ix1 k)).trans (half_lo_apply _ k))
  show (V m c main_v5 : S128.Idx → Elt Ideal .f32) (((cfg0.win 0).blk t).view.emb (ix1 k)) = _
  refine congrArg _ (funext fun a => Fin.ext ?_)
  match a with
  | ⟨0, _⟩ => show win0_0.index t (0 : Fin 1) * 128 + 1 * k.val = k.val; omega

theorem lut_hi_blk (c : Dev nD) (t : Fin cfg0.N) (k : Fin 128) :
    (iblk m c 1 t : Vec Ideal S128 .f32) (ix1 k) = lutOf (F := Ideal) (m ((c : Thread nD τ).loc main_arg1)) (ix1 ⟨128 + k.val, by omega⟩) := by
  obtain ⟨-, e1, -⟩ := idx_facts t
  refine Eq.trans ?_ ((congrFun (V_lut_hi m c) (ix1 k)).trans (half_hi_apply _ k))
  show (V m c main_v6 : S128.Idx → Elt Ideal .f32) (((cfg0.win 1).blk t).view.emb (ix1 k)) = _
  refine congrArg _ (funext fun a => Fin.ext ?_)
  match a with
  | ⟨0, _⟩ => show win0_1.index t (0 : Fin 1) * 128 + 1 * k.val = k.val; omega

theorem cls_lo_blk (c : Dev nD) (t : Fin cfg0.N) (k : Fin 128) :
    (iblk m c 2 t : Vec Ideal S128 .f32) (ix1 k) = ((((m ((c : Thread nD τ).loc main_arg2) : S256.Idx → BitVec 32) (ix1 ⟨0 + k.val, by omega⟩)).toInt : ℝ) : EReal) := by
  obtain ⟨-, -, e2, -⟩ := idx_facts t
  refine Eq.trans ?_ ((congrFun (V_cls_lo m c) (ix1 k)).trans (half_lo_apply _ k))
  show (V m c main_v7 : S128.Idx → Elt Ideal .f32) (((cfg0.win 2).blk t).view.emb (ix1 k)) = _
  refine congrArg _ (funext fun a => Fin.ext ?_)
  match a with
  | ⟨0, _⟩ => show win0_2.index t (0 : Fin 1) * 128 + 1 * k.val = k.val; omega

theorem cls_hi_blk (c : Dev nD) (t : Fin cfg0.N) (k : Fin 128) :
    (iblk m c 3 t : Vec Ideal S128 .f32) (ix1 k) = ((((m ((c : Thread nD τ).loc main_arg2) : S256.Idx → BitVec 32) (ix1 ⟨128 + k.val, by omega⟩)).toInt : ℝ) : EReal) := by
  obtain ⟨-, -, -, e3, -⟩ := idx_facts t
  refine Eq.trans ?_ ((congrFun (V_cls_hi m c) (ix1 k)).trans (half_hi_apply _ k))
  show (V m c main_v8 : S128.Idx → Elt Ideal .f32) (((cfg0.win 3).blk t).view.emb (ix1 k)) = _
  refine congrArg _ (funext fun a => Fin.ext ?_)
  match a with
  | ⟨0, _⟩ => show win0_3.index t (0 : Fin 1) * 128 + 1 * k.val = k.val; omega

/-! ## The scaled volume -/

/-- The labels as the kernel's region finds them, by their literal type. -/
abbrev labArr (c : Dev nD) : S256x256x256.Idx → BitVec 32 := V m c main_arg0
/-- The volume as the kernel's region finds it. -/
abbrev parArr (c : Dev nD) : S256x256x256.Idx → EReal := V m c main_arg3
/-- The intensity table the host operations build. -/
abbrev lutArr (c : Dev nD) : S256.Idx → EReal := lutOf (F := Ideal) (m ((c : Thread nD τ).loc main_arg1))
/-- The class words. -/
abbrev clsArr (c : Dev nD) : S256.Idx → BitVec 32 := m ((c : Thread nD τ).loc main_arg2)

/-- The labels' block moves with the scaled volume's. -/
theorem emb4 (t : Fin cfg0.N) (j : S8x256x128.Idx) :
    ((cfg0.win 4).blk t).view.emb j = ((cfg0.win 6).blk t).view.emb j := by
  obtain ⟨-, -, -, -, e0, e1, e2, -⟩ := idx_facts t
  funext a; apply Fin.ext
  match a with
  | ⟨0, _⟩ => show win0_4.index t (0 : Fin 3) * 8 + 1 * (j 0).val = win0_6.index t (0 : Fin 3) * 8 + 1 * (j 0).val; omega
  | ⟨1, _⟩ => show win0_4.index t (1 : Fin 3) * 256 + 1 * (j 1).val = win0_6.index t (1 : Fin 3) * 256 + 1 * (j 1).val; omega
  | ⟨2, _⟩ => show win0_4.index t (2 : Fin 3) * 128 + 1 * (j 2).val = win0_6.index t (2 : Fin 3) * 128 + 1 * (j 2).val; omega

/-- The volume's block moves with the scaled volume's. -/
theorem emb5 (t : Fin cfg0.N) (j : S8x256x128.Idx) :
    ((cfg0.win 5).blk t).view.emb j = ((cfg0.win 6).blk t).view.emb j := by
  obtain ⟨-, -, -, -, -, -, -, e0, e1, e2, -⟩ := idx_facts t
  funext a; apply Fin.ext
  match a with
  | ⟨0, _⟩ => show win0_5.index t (0 : Fin 3) * 8 + 1 * (j 0).val = win0_6.index t (0 : Fin 3) * 8 + 1 * (j 0).val; omega
  | ⟨1, _⟩ => show win0_5.index t (1 : Fin 3) * 256 + 1 * (j 1).val = win0_6.index t (1 : Fin 3) * 256 + 1 * (j 1).val; omega
  | ⟨2, _⟩ => show win0_5.index t (2 : Fin 3) * 128 + 1 * (j 2).val = win0_6.index t (2 : Fin 3) * 128 + 1 * (j 2).val; omega

/-- WHAT POINT `t` WRITES BACK of the scaled volume is block `t` of the specification's scaled volume. -/
theorem flushed6_eq (c : Dev nD) (hR : ∀ i, InRange (labArr m c i)) (t : Fin cfg0.N) :
    (dats m 0 c).flushed 6 t
      = ((cfg0.win 6).blk t).view.read (Elt Ideal) (outVol (F := Ideal) (labArr m c) (lutArr m c) (parArr m c)) := by
  rw [Value.flushed6]
  funext j
  have hlab : (iblk m c 4 t : Vec Ideal S8x256x128 .i32) j = labArr m c (((cfg0.win 6).blk t).view.emb j) := by
    show labArr m c (((cfg0.win 4).blk t).view.emb j) = _
    rw [emb4]
  have hpar : (iblk m c 5 t : Vec Ideal S8x256x128 .f32) j = parArr m c (((cfg0.win 6).blk t).view.emb j) := by
    show parArr m c (((cfg0.win 5).blk t).view.emb j) = _
    rw [emb5]
  show out0_6 (iblk m c 0 t) (iblk m c 1 t) (iblk m c 2 t) (iblk m c 3 t) (iblk m c 4 t) (iblk m c 5 t) j
      = outAt (F := Ideal) (lutArr m c) (parArr m c (((cfg0.win 6).blk t).view.emb j)) (labArr m c (((cfg0.win 6).blk t).view.emb j))
  refine (out6_point (F := Ideal) (lutArr m c) (iblk m c 0 t) (iblk m c 1 t) (iblk m c 2 t) (iblk m c 3 t) (iblk m c 4 t) (iblk m c 5 t)
    (lut_lo_blk m c t) (lut_hi_blk m c t) j (hlab ▸ hR _)).trans ?_
  rw [hlab, hpar]

/-- A voxel is in point `t`'s block iff each coordinate is in the block's range on its axis. -/
theorem mem_blk6 (t : Fin cfg0.N) (i : S256x256x256.Idx) :
    i ∈ ((cfg0.win 6).blk t).view.set ↔ ∀ a : Fin 3, win0_6.index t a * S8x256x128.size a ≤ (i a).val
      ∧ (i a).val < win0_6.index t a * S8x256x128.size a + S8x256x128.size a := by
  show i ∈ ((View.whole main_v9_0).slice (win0_6.rect t)).set ↔ _
  rw [View.set_slice_whole, Rect.mem_set_unit]
  exact Iff.rfl

/-- The blocks tile the volume. -/
theorem cover6 (i : S256x256x256.Idx) :
    ∃ t : Fin cfg0.N, (cfg0.win 6).flush t = true ∧ i ∈ ((cfg0.win 6).blk t).view.set := by
  have hi0 : (i 0).val < 256 := (i 0).isLt
  have hi1 : (i 1).val < 256 := (i 1).isLt
  have hi2 : (i 2).val < 256 := (i 2).isLt
  obtain ⟨t, ht⟩ := idx_onto ⟨(i 0).val / 8, by omega⟩ ⟨(i 2).val / 128, by omega⟩
  have q0 : win0_6.index t (0 : Fin 3) = (i 0).val / 8 := congrFun ht 0
  have q1 : win0_6.index t (1 : Fin 3) = 0 := congrFun ht 1
  have q2 : win0_6.index t (2 : Fin 3) = (i 2).val / 128 := congrFun ht 2
  refine ⟨t, flush0_6 t, ?_⟩
  rw [mem_blk6]
  intro a
  match a with
  | ⟨0, _⟩ => show win0_6.index t (0 : Fin 3) * 8 ≤ (i 0).val ∧ (i 0).val < win0_6.index t (0 : Fin 3) * 8 + 8; omega
  | ⟨1, _⟩ => show win0_6.index t (1 : Fin 3) * 256 ≤ (i 1).val ∧ (i 1).val < win0_6.index t (1 : Fin 3) * 256 + 256; omega
  | ⟨2, _⟩ => show win0_6.index t (2 : Fin 3) * 128 ≤ (i 2).val ∧ (i 2).val < win0_6.index t (2 : Fin 3) * 128 + 128; omega

/-- THE SCALED VOLUME after the run. -/
theorem final6 (c : Dev nD) (hR : ∀ i, InRange (labArr m c i)) :
    (dats m 0 c).arrAt 6 cfg0.N = outVol (F := Ideal) (labArr m c) (lutArr m c) (parArr m c) :=
  (dats m 0 c).arrAt_eq_of_cover 6 _ (fun t _ => flushed6_eq m c hR t) cover6

/-! ## The one-hot volume -/

/-- The voxel under an element of point `t`'s one-hot block is the labels' block element under it. -/
theorem emb7_vox (t : Fin cfg0.N) (y : S3x8x256x128.Idx) :
    ((cfg0.win 4).blk t).view.emb (inner y) = voxOf (((cfg0.win 7).blk t).view.emb y) := by
  obtain ⟨-, -, -, -, e40, e41, e42, -, -, -, e70, e71, e72, e73, -, e61, -⟩ := idx_facts t
  funext a; apply Fin.ext
  match a with
  | ⟨0, _⟩ => show win0_4.index t (0 : Fin 3) * 8 + 1 * (y 1).val = win0_7.index t (1 : Fin 4) * 8 + 1 * (y 1).val; omega
  | ⟨1, _⟩ => show win0_4.index t (1 : Fin 3) * 256 + 1 * (y 2).val = win0_7.index t (2 : Fin 4) * 256 + 1 * (y 2).val; omega
  | ⟨2, _⟩ => show win0_4.index t (2 : Fin 3) * 128 + 1 * (y 3).val = win0_7.index t (3 : Fin 4) * 128 + 1 * (y 3).val; omega

/-- Its channel is the block's channel: the one-hot volume's block spans all three channels. -/
theorem emb7_chan (t : Fin cfg0.N) (y : S3x8x256x128.Idx) :
    ((((cfg0.win 7).blk t).view.emb y) 0).val = (y 0).val := by
  obtain ⟨-, -, -, -, -, -, -, -, -, -, e70, -⟩ := idx_facts t
  show win0_7.index t (0 : Fin 4) * 3 + 1 * (y 0).val = (y 0).val
  omega

/-- WHAT POINT `t` WRITES BACK of the one-hot volume is block `t` of the specification's one-hot volume. -/
theorem flushed7_eq (c : Dev nD) (hR : ∀ i, InRange (labArr m c i)) (t : Fin cfg0.N) :
    (dats m 0 c).flushed 7 t
      = ((cfg0.win 7).blk t).view.read (Elt Ideal) (hotVol (F := Ideal) (labArr m c) (clsArr m c)) := by
  rw [Value.flushed7]
  funext y
  have hlab : (iblk m c 4 t : Vec Ideal S8x256x128 .i32) (inner y) = labArr m c (voxOf (((cfg0.win 7).blk t).view.emb y)) := by
    show labArr m c (((cfg0.win 4).blk t).view.emb (inner y)) = _
    rw [emb7_vox]
  show out0_7 (iblk m c 0 t) (iblk m c 1 t) (iblk m c 2 t) (iblk m c 3 t) (iblk m c 4 t) (iblk m c 5 t) y
      = hotAt (F := Ideal) (clsArr m c) (labArr m c (voxOf (((cfg0.win 7).blk t).view.emb y))) ((((cfg0.win 7).blk t).view.emb y) 0).val
  refine (out7_point (clsArr m c) (iblk m c 0 t) (iblk m c 1 t) (iblk m c 2 t) (iblk m c 3 t) (iblk m c 4 t) (iblk m c 5 t)
    (cls_lo_blk m c t) (cls_hi_blk m c t) y (hlab ▸ hR _)).trans ?_
  rw [hlab, emb7_chan]

/-- A one-hot index is in point `t`'s block iff each coordinate is in the block's range on its axis. -/
theorem mem_blk7 (t : Fin cfg0.N) (i : S3x256x256x256.Idx) :
    i ∈ ((cfg0.win 7).blk t).view.set ↔ ∀ a : Fin 4, win0_7.index t a * S3x8x256x128.size a ≤ (i a).val
      ∧ (i a).val < win0_7.index t a * S3x8x256x128.size a + S3x8x256x128.size a := by
  show i ∈ ((View.whole main_v9_1).slice (win0_7.rect t)).set ↔ _
  rw [View.set_slice_whole, Rect.mem_set_unit]
  exact Iff.rfl

/-- The blocks tile the one-hot volume. -/
theorem cover7 (i : S3x256x256x256.Idx) :
    ∃ t : Fin cfg0.N, (cfg0.win 7).flush t = true ∧ i ∈ ((cfg0.win 7).blk t).view.set := by
  have hi0 : (i 0).val < 3 := (i 0).isLt
  have hi1 : (i 1).val < 256 := (i 1).isLt
  have hi2 : (i 2).val < 256 := (i 2).isLt
  have hi3 : (i 3).val < 256 := (i 3).isLt
  obtain ⟨t, ht⟩ := idx_onto ⟨(i 1).val / 8, by omega⟩ ⟨(i 3).val / 128, by omega⟩
  have q0 : win0_6.index t (0 : Fin 3) = (i 1).val / 8 := congrFun ht 0
  have q2 : win0_6.index t (2 : Fin 3) = (i 3).val / 128 := congrFun ht 2
  obtain ⟨-, -, -, -, -, -, -, -, -, -, e70, e71, e72, e73, -⟩ := idx_facts t
  refine ⟨t, flush0_7 t, ?_⟩
  rw [mem_blk7]
  intro a
  match a with
  | ⟨0, _⟩ => show win0_7.index t (0 : Fin 4) * 3 ≤ (i 0).val ∧ (i 0).val < win0_7.index t (0 : Fin 4) * 3 + 3; omega
  | ⟨1, _⟩ => show win0_7.index t (1 : Fin 4) * 8 ≤ (i 1).val ∧ (i 1).val < win0_7.index t (1 : Fin 4) * 8 + 8; omega
  | ⟨2, _⟩ => show win0_7.index t (2 : Fin 4) * 256 ≤ (i 2).val ∧ (i 2).val < win0_7.index t (2 : Fin 4) * 256 + 256; omega
  | ⟨3, _⟩ => show win0_7.index t (3 : Fin 4) * 128 ≤ (i 3).val ∧ (i 3).val < win0_7.index t (3 : Fin 4) * 128 + 128; omega

/-- THE ONE-HOT VOLUME after the run. -/
theorem final7 (c : Dev nD) (hR : ∀ i, InRange (labArr m c i)) :
    (dats m 0 c).arrAt 7 cfg0.N = hotVol (F := Ideal) (labArr m c) (clsArr m c) :=
  (dats m 0 c).arrAt_eq_of_cover 7 _ (fun t _ => flushed7_eq m c hR t) cover7

/-! ## The run, read -/

/-- The kernel's run with both results at the specification's volumes of the argument arrays, the arguments unchanged. -/
theorem run (hR : ∀ (c : Dev nD) (i : S256x256x256.Idx), InRange ((m ((c : Thread nD τ).loc main_arg0) : S256x256x256.Idx → BitVec 32) i)) :
    θ_run defs (onTc (τ := τ) (main (F := Ideal))) ⟨m, fun _ => 0, ρ⟩ fun r => ∀ c : Dev nD,
      r.2.mem ((c : Thread nD τ).loc main_v9_0)
          = outVol (F := Ideal) (m ((c : Thread nD τ).loc main_arg0)) (lutArr m c) (m ((c : Thread nD τ).loc main_arg3))
      ∧ r.2.mem ((c : Thread nD τ).loc main_v9_1)
          = hotVol (F := Ideal) (m ((c : Thread nD τ).loc main_arg0)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) := by
  have hR' : ∀ (c : Dev nD) (i : S256x256x256.Idx), InRange (labArr m c i) := fun c i => by
    show InRange ((V m c main_arg0 : S256x256x256.Idx → BitVec 32) i)
    rw [V_main_arg0]; exact hR c i
  refine (θ_run defs _ _).mono (fun r h c => ⟨(h c).1.trans ?_, (h c).2.1.trans ?_, (h c).2.2⟩) (Value.run_blocks m ρ)
  · rw [final6 m c (hR' c)]
    show outVol (F := Ideal) (V m c main_arg0) (lutArr m c) (V m c main_arg3) = _
    rw [V_main_arg0, V_main_arg3]
  · rw [final7 m c (hR' c)]
    show hotVol (F := Ideal) (V m c main_arg0) (clsArr m c) = _
    rw [V_main_arg0]

end Cert.Vessel.Kernel

end
-- ==== Proof.lean ====
/-
  Vessel relabelling: the kernel equals its reference on labels in the label range.

  Per voxel with label `L` and number `p` both programs produce `p · T[L]` on a vessel voxel (`L ≠ 0`) and `p` on
  background, where `T` is the intensity table with entry 0 replaced by one, and the three class indicators
  (background; vessel whose class word is one; the other vessels) as numbers.  The reference reads the tables
  through jnp's gather (a negative index moved up by 256, then clamped into the table); the kernel cuts each table
  into two halves of 128 entries, gathers along the lanes at the label's low seven bits in both halves and keeps
  the upper half's entry when `L ≥ 128`.  For `0 ≤ L < 256` both read entry `L`; outside that range they do not
  (at `L = 256` the reference clamps to entry 255 and the kernel reads entry 128), which is why the precondition
  puts every label in `[0, 256)`.  No law of the extended reals is used beyond that the two sides multiply the
  same two numbers, so the finiteness conjuncts of the precondition are not opened.  The kernel compares the class
  word, converted exactly, with the float one; the reference compares the word with the integer one: the same test.

  The kernel's frames are the generated ones; the reference's frame is its generated run; the idealization rewrote
  nothing, so `preserves` is trivial.
-/
import proofs.«412224_j74156905333422_2_alg».proof.Defs
import proofs.«412224_j74156905333422_2_alg».proof.Proof.Gen.Kernel
import proofs.«412224_j74156905333422_2_alg».proof.Proof.Gen.Kernel.Skeleton
import proofs.«412224_j74156905333422_2_alg».proof.Proof.Gen.Kernel.Launch
import proofs.«412224_j74156905333422_2_alg».proof.Proof.Gen.Kernel.Points
import proofs.«412224_j74156905333422_2_alg».proof.Proof.Gen.Kernel.Frame
import proofs.«412224_j74156905333422_2_alg».proof.Proof.Gen.KernelIdeal
import proofs.«412224_j74156905333422_2_alg».proof.Proof.Gen.KernelIdeal.Skeleton
import proofs.«412224_j74156905333422_2_alg».proof.Proof.Gen.KernelIdeal.Launch
import proofs.«412224_j74156905333422_2_alg».proof.Proof.Gen.KernelIdeal.Points
import proofs.«412224_j74156905333422_2_alg».proof.Proof.Gen.KernelIdeal.Frame
import proofs.«412224_j74156905333422_2_alg».proof.Proof.Gen.ReferenceIdeal
import proofs.«412224_j74156905333422_2_alg».proof.Proof.Gen.Pre_finite_inputs
import proofs.«412224_j74156905333422_2_alg».proof.Proof.Gen.KernelIdeal.Value
import proofs.«412224_j74156905333422_2_alg».proof.Proof.Gen.ReferenceIdeal.Run
import proofs.«412224_j74156905333422_2_alg».proof.Proof.Gen.ReferenceIdeal.Read
import Idealize.ShloMosaic.Adequacy
import Idealize.ShloMosaic.Init

import proofs.«412224_j74156905333422_2_alg».proof.Proof.PreRange
import proofs.«412224_j74156905333422_2_alg».proof.Proof.RefPoint
import proofs.«412224_j74156905333422_2_alg».proof.Proof.KernelVolume

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- Both runs end at the specification's two volumes of the (agreeing) argument arrays: the kernel's by its blocks
    tiling the volumes, the reference's by reading its operations at a voxel. -/
theorem algebraic : Cert.algebraic_KernelIdeal_ReferenceIdeal := by
  intro m ρ m' ρ' hpre hagree
  have hR : ∀ (c : Dev Cert.KernelIdeal.nD) (i : Cert.KernelIdeal.S256x256x256.Idx),
      Cert.Vessel.InRange ((m ((c.tc : Thread Cert.KernelIdeal.nD Cert.KernelIdeal.τ).loc Cert.KernelIdeal.main_arg0)
        : Cert.KernelIdeal.S256x256x256.Idx → BitVec 32) i) :=
    fun c i => Cert.Vessel.labels_in_range (F := Ideal) _ _ _ _ (hpre c) i
  refine ⟨_, _, Cert.Vessel.Kernel.run m ρ hR, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v32_eq]
    funext i
    rw [Cert.Vessel.Ref.out_apply, (hagree c).1, (hagree c).2.1, (hagree c).2.2.2]
    rfl
  · rw [Cert.ReferenceIdeal.Read.val_main_v30_eq]
    funext j
    rw [Cert.Vessel.Ref.hot_apply, (hagree c).1, (hagree c).2.2.1]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
